-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x12000 : Shape := ⟨2, ![12000, 12000]⟩
abbrev S12000x256 : Shape := ⟨2, ![12000, 256]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S12000x12000 : S_.BroadcastsInDim S12000x12000 (![] : Fin 0 → Fin S12000x12000.rank)
  reducesTo_S12000x12000_S_d0_1 : S12000x12000.ReducesTo [0, 1] S_
  h_S_ : 0 < S_.numel
  bcast_S_S12000x256 : S_.BroadcastsInDim S12000x256 (![] : Fin 0 → Fin S12000x256.rank)
  reducesTo_S12000x256_S_d0_1 : S12000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x40 .f32) (main_arg7 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x40 .f32 := Host.absf main_arg6
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg7 main_v33

def fn {F : FTy → Type} [FloatOps F] (main_arg0 : FVec F S12000x12000 .f32) (main_arg1 : FVec F S12000x256 .f32) (main_arg2 : FVec F S256x256 .f32) (main_arg3 : FVec F S256 .f32) (main_arg4 : FVec F S256x256 .f32) (main_arg5 : FVec F S256 .f32) (main_arg6 : FVec F S256x40 .f32) (main_arg7 : FVec F S40 .f32) : IVec S_ 1 :=
  let main_v0 : FVec F S12000x12000 .f32 := Host.absf main_arg0
  let main_cst : FVec F S_ .f32 := constant S_ .f32 0x7F800000#32
  let main_v1 : FVec F S12000x12000 .f32 := broadcastInDim S12000x12000 ![] bcast_S_S12000x12000 main_cst
  let main_v2 : IVec S12000x12000 1 := cmpf .olt main_v0 main_v1
  let main_c : IVec S_ 1 := constantI S_ 1 1#1
  let main_v3 : IVec S_ 1 := (fun x v => Host.reduce IntOp.andi x v reducesTo_S12000x12000_S_d0_1 h_S_) main_v2 main_c
  let main_v4 : FVec F S12000x256 .f32 := Host.absf main_arg1
  let main_cst_0 : FVec F S_ .f32 := constant S_ .f32 0x7F800000#32
  let main_v5 : FVec F S12000x256 .f32 := broadcastInDim S12000x256 ![] bcast_S_S12000x256 main_cst_0
  let main_v6 : IVec S12000x256 1 := cmpf .olt main_v4 main_v5
  let main_c_1 : IVec S_ 1 := constantI S_ 1 1#1
  let main_v7 : IVec S_ 1 := (fun x v => Host.reduce IntOp.andi x v reducesTo_S12000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S12000x12000 : Shape := ⟨2, ![12000, 12000]⟩
abbrev S12000x256 : Shape := ⟨2, ![12000, 256]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S120x12000 : Shape := ⟨2, ![120, 12000]⟩
abbrev S120x256 : Shape := ⟨2, ![120, 256]⟩
abbrev S120 : Shape := ⟨1, ![120]⟩
abbrev S120x1 : Shape := ⟨2, ![120, 1]⟩
abbrev S1x40 : Shape := ⟨2, ![1, 40]⟩
abbrev S12000x40 : Shape := ⟨2, ![12000, 40]⟩
abbrev S120x40 : Shape := ⟨2, ![120, 40]⟩

abbrev nBuf : Space → Nat
  | .hbm => 14
  | .vmem => 21
  | .smem => 0
  | _ => 0

abbrev bufTy : (tb : Table) → Fin (tcTables nBuf tb) → BufTy
  | .hbm, ⟨0, _⟩ => ⟨S12000x12000, .f32⟩
  | .hbm, ⟨1, _⟩ => ⟨S12000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S1x256, .f32⟩
  | .hbm, ⟨9, _⟩ => ⟨S12000x256, .f32⟩
  | .hbm, ⟨10, _⟩ => ⟨S1x256, .f32⟩
  | .hbm, ⟨11, _⟩ => ⟨S12000x256, .f32⟩
  | .hbm, ⟨12, _⟩ => ⟨S1x40, .f32⟩
  | .hbm, ⟨13, _⟩ => ⟨S12000x40, .f32⟩
  | .local _ .vmem, ⟨0, _⟩ => ⟨S120x12000, .f32⟩
  | .local _ .vmem, ⟨1, _⟩ => ⟨S120x12000, .f32⟩
  | .local _ .vmem, ⟨2, _⟩ => ⟨S12000x256, .f32⟩
  | .local _ .vmem, ⟨3, _⟩ => ⟨S256x256, .f32⟩
  | .local _ .vmem, ⟨4, _⟩ => ⟨S1x256, .f32⟩
  | .local _ .vmem, ⟨5, _⟩ => ⟨S120x256, .f32⟩
  | .local _ .vmem, ⟨6, _⟩ => ⟨S120x256, .f32⟩
  | .local _ .vmem, ⟨7, _⟩ => ⟨S120x12000, .f32⟩
  | .local _ .vmem, ⟨8, _⟩ => ⟨S120x12000, .f32⟩
  | .local _ .vmem, ⟨9, _⟩ => ⟨S12000x256, .f32⟩
  | .local _ .vmem, ⟨10, _⟩ => ⟨S256x256, .f32⟩
  | .local _ .vmem, ⟨11, _⟩ => ⟨S1x256, .f32⟩
  | .local _ .vmem, ⟨12, _⟩ => ⟨S120x256, .f32⟩
  | .local _ .vmem, ⟨13, _⟩ => ⟨S120x256, .f32⟩
  | .local _ .vmem, ⟨14, _⟩ => ⟨S120x12000, .f32⟩
  | .local _ .vmem, ⟨15, _⟩ => ⟨S120x12000, .f32⟩
  | .local _ .vmem, ⟨16, _⟩ => ⟨S12000x256, .f32⟩
  | .local _ .vmem, ⟨17, _⟩ => ⟨S256x40, .f32⟩
  | .local _ .vmem, ⟨18, _⟩ => ⟨S1x40, .f32⟩
  | .local _ .vmem, ⟨19, _⟩ => ⟨S120x40, .f32⟩
  | .local _ .vmem, ⟨20, _⟩ => ⟨S120x40, .f32⟩
  | _, _ => ⟨S12000x12000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S120x12000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S120x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S120x12000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S120x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S120x12000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S120x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256_S1x256 : S256.ShapeCasts S1x256
  inb_S120x12000_S120x12000_0_0 : ∀ a, (![0, 0] : Fin 2 → Nat) a + S120x12000.size a ≤ S120x12000.size a
  h_S120x12000 : 0 < S120x12000.numel
  bitsLt_bf16_f32 : FTy.bits .bf16 < FTy.bits .f32
  inb_S12000x256_S12000x256_0_0 : ∀ a, (![0, 0] : Fin 2 → Nat) a + S12000x256.size a ≤ S12000x256.size a
  h_S12000x256 : 0 < S12000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S120x256 : S1x256.Broadcasts S120x256
  reduces_S120x256_S120 : S120x256.Reduces [1] S120
  shapeCasts_S120_S120x1 : S120.ShapeCasts S120x1
  broadcasts_S120x1_S120x256 : S120x1.Broadcasts S120x256
  inb_S120x256_S120x256_0_0 : ∀ a, (![0, 0] : Fin 2 → Nat) a + S120x256.size a ≤ S120x256.size a
  h_S120x256 : 0 < S120x256.numel
  shapeCasts_S12000x256_S12000x256 : S12000x256.ShapeCasts S12000x256
  shapeCasts_S40_S1x40 : S40.ShapeCasts S1x40
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S120x40 : S1x40.Broadcasts S120x40
  inb_S120x40_S120x40_0_0 : ∀ a, (![0, 0] : Fin 2 → Nat) a + S120x40.size a ≤ S120x40.size a
  h_S120x40 : 0 < S120x40.numel
  dot_S120x12000_S12000x256_S120x256_1_0_0_1_n_n_wf : DotDims.WF S120x12000 S12000x256 S120x256 [1] [0] [0] [1] [] []
  dot_S120x256_S256x256_S120x256_1_0_0_1_n_n_wf : DotDims.WF S120x256 S256x256 S120x256 [1] [0] [0] [1] [] []
  dot_S120x256_S256x40_S120x40_1_0_0_1_n_n_wf : DotDims.WF S120x256 S256x40 S120x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S120x12000.size a ≤ S12000x12000.size a
  hwx0_0 : ∀ i : grid0.Coords, EltTy.bits .f32 = 32 ∨ (Rect.block (s := S12000x12000) S120x12000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12000x256.size a ≤ S12000x256.size a
  hwx0_1 : ∀ i : grid0.Coords, EltTy.bits .f32 = 32 ∨ (Rect.block (s := S12000x256) S12000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S120x256.size a ≤ S12000x256.size a
  hwx0_4 : ∀ i : grid0.Coords, EltTy.bits .f32 = 32 ∨ (Rect.block (s := S12000x256) S120x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S120x12000.size a ≤ S12000x12000.size a
  hwx1_0 : ∀ i : grid1.Coords, EltTy.bits .f32 = 32 ∨ (Rect.block (s := S12000x12000) S120x12000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12000x256.size a ≤ S12000x256.size a
  hwx1_1 : ∀ i : grid1.Coords, EltTy.bits .f32 = 32 ∨ (Rect.block (s := S12000x256) S12000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S120x256.size a ≤ S12000x256.size a
  hwx1_4 : ∀ i : grid1.Coords, EltTy.bits .f32 = 32 ∨ (Rect.block (s := S12000x256) S120x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S120x12000.size a ≤ S12000x12000.size a
  hwx2_0 : ∀ i : grid2.Coords, EltTy.bits .f32 = 32 ∨ (Rect.block (s := S12000x12000) S120x12000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12000x256.size a ≤ S12000x256.size a
  hwx2_1 : ∀ i : grid2.Coords, EltTy.bits .f32 = 32 ∨ (Rect.block (s := S12000x256) S12000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x40.size a ≤ S256x40.size a
  hwx2_2 : ∀ i : grid2.Coords, EltTy.bits .f32 = 32 ∨ (Rect.block (s := S256x40) S256x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S120x40.size a ≤ S12000x40.size a
  hwx2_4 : ∀ i : grid2.Coords, EltTy.bits .f32 = 32 ∨ (Rect.block (s := S12000x40) S120x40.size (cc2_transform_4 i) (hinb2_4 i)).WholeWords (EltTy.packing .f32)

variable [Facts₀]

def dot_S120x12000_S12000x256_S120x256_1_0_0_1_n_n : DotDims S120x12000 S12000x256 S120x256 where
  lhsContracting := [1]
  rhsContracting := [0]
  lhsNonContracting := [0]
  rhsNonContracting := [1]
  lhsBatch := []
  rhsBatch := []
  wf := dot_S120x12000_S12000x256_S120x256_1_0_0_1_n_n_wf
def dot_S120x256_S256x256_S120x256_1_0_0_1_n_n : DotDims S120x256 S256x256 S120x256 where
  lhsContracting := [1]
  rhsContracting := [0]
  lhsNonContracting := [0]
  rhsNonContracting := [1]
  lhsBatch := []
  rhsBatch := []
  wf := dot_S120x256_S256x256_S120x256_1_0_0_1_n_n_wf
def dot_S120x256_S256x40_S120x40_1_0_0_1_n_n : DotDims S120x256 S256x40 S120x40 where
  lhsContracting := [1]
  rhsContracting := [0]
  lhsNonContracting := [0]
  rhsNonContracting := [1]
  lhsBatch := []
  rhsBatch := []
  wf := dot_S120x256_S256x40_S120x40_1_0_0_1_n_n_wf

abbrev win0_0 : Pipeline.Window sig grid0 :=
  Pipeline.Window.ofSpec (Memref.whole main_arg0) S120x12000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S120x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S120x12000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S12000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S120x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S120x12000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S12000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S120x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S12000x12000 : Shape := ⟨2, ![12000, 12000]⟩
abbrev S12000x256 : Shape := ⟨2, ![12000, 256]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S_ : Shape := ⟨0, ![]⟩
abbrev S12000 : Shape := ⟨1, ![12000]⟩
abbrev S12000x1 : Shape := ⟨2, ![12000, 1]⟩
abbrev S12000x40 : Shape := ⟨2, ![12000, 40]⟩
abbrev S1x40 : Shape := ⟨2, ![1, 40]⟩

abbrev nBuf : Space → Nat
  | .hbm => 49
  | .vmem => 0
  | .smem => 0
  | _ => 0

abbrev bufTy : (tb : Table) → Fin (tcTables nBuf tb) → BufTy
  | .hbm, ⟨0, _⟩ => ⟨S12000x12000, .f32⟩
  | .hbm, ⟨1, _⟩ => ⟨S12000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S12000x256, .f32⟩
  | .hbm, ⟨9, _⟩ => ⟨S12000x256, .f32⟩
  | .hbm, ⟨10, _⟩ => ⟨S1x256, .f32⟩
  | .hbm, ⟨11, _⟩ => ⟨S12000x256, .f32⟩
  | .hbm, ⟨12, _⟩ => ⟨S12000x256, .f32⟩
  | .hbm, ⟨13, _⟩ => ⟨S_, .f32⟩
  | .hbm, ⟨14, _⟩ => ⟨S12000x256, .f32⟩
  | .hbm, ⟨15, _⟩ => ⟨S12000x256, .f32⟩
  | .hbm, ⟨16, _⟩ => ⟨S12000x256, .f32⟩
  | .hbm, ⟨17, _⟩ => ⟨S_, .f32⟩
  | .hbm, ⟨18, _⟩ => ⟨S12000, .f32⟩
  | .hbm, ⟨19, _⟩ => ⟨S12000x1, .f32⟩
  | .hbm, ⟨20, _⟩ => ⟨S12000x1, .f32⟩
  | .hbm, ⟨21, _⟩ => ⟨S_, .f32⟩
  | .hbm, ⟨22, _⟩ => ⟨S12000x1, .f32⟩
  | .hbm, ⟨23, _⟩ => ⟨S12000x1, .f32⟩
  | .hbm, ⟨24, _⟩ => ⟨S12000x256, .f32⟩
  | .hbm, ⟨25, _⟩ => ⟨S12000x256, .f32⟩
  | .hbm, ⟨26, _⟩ => ⟨S12000x256, .f32⟩
  | .hbm, ⟨27, _⟩ => ⟨S12000x256, .f32⟩
  | .hbm, ⟨28, _⟩ => ⟨S1x256, .f32⟩
  | .hbm, ⟨29, _⟩ => ⟨S12000x256, .f32⟩
  | .hbm, ⟨30, _⟩ => ⟨S12000x256, .f32⟩
  | .hbm, ⟨31, _⟩ => ⟨S_, .f32⟩
  | .hbm, ⟨32, _⟩ => ⟨S12000x256, .f32⟩
  | .hbm, ⟨33, _⟩ => ⟨S12000x256, .f32⟩
  | .hbm, ⟨34, _⟩ => ⟨S12000x256, .f32⟩
  | .hbm, ⟨35, _⟩ => ⟨S_, .f32⟩
  | .hbm, ⟨36, _⟩ => ⟨S12000, .f32⟩
  | .hbm, ⟨37, _⟩ => ⟨S12000x1, .f32⟩
  | .hbm, ⟨38, _⟩ => ⟨S12000x1, .f32⟩
  | .hbm, ⟨39, _⟩ => ⟨S_, .f32⟩
  | .hbm, ⟨40, _⟩ => ⟨S12000x1, .f32⟩
  | .hbm, ⟨41, _⟩ => ⟨S12000x1, .f32⟩
  | .hbm, ⟨42, _⟩ => ⟨S12000x256, .f32⟩
  | .hbm, ⟨43, _⟩ => ⟨S12000x256, .f32⟩
  | .hbm, ⟨44, _⟩ => ⟨S12000x256, .f32⟩
  | .hbm, ⟨45, _⟩ => ⟨S12000x40, .f32⟩
  | .hbm, ⟨46, _⟩ => ⟨S1x40, .f32⟩
  | .hbm, ⟨47, _⟩ => ⟨S12000x40, .f32⟩
  | .hbm, ⟨48, _⟩ => ⟨S12000x40, .f32⟩
  | _, _ => ⟨S12000x12000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S12000x256_0_1 : S1x256.BroadcastsInDim S12000x256 (![0, 1] : Fin 2 → Fin S12000x256.rank)
  bcast_S_S12000x256 : S_.BroadcastsInDim S12000x256 (![] : Fin 0 → Fin S12000x256.rank)
  reducesTo_S12000x256_S12000_d1 : S12000x256.ReducesTo [1] S12000
  h_S_ : 0 < S_.numel
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x256_0_1 : S12000x1.BroadcastsInDim S12000x256 (![0, 1] : Fin 2 → Fin S12000x256.rank)
  bcast_S40_S1x40_1 : S40.BroadcastsInDim S1x40 (![1] : Fin 1 → Fin S1x40.rank)
  bcast_S1x40_S12000x40_0_1 : S1x40.BroadcastsInDim S12000x40 (![0, 1] : Fin 2 → Fin S12000x40.rank)
  dot_S12000x12000_S12000x256_S12000x256_1_0_0_1_n_n_wf : DotDims.WF S12000x12000 S12000x256 S12000x256 [1] [0] [0] [1] [] []
  dot_S12000x256_S256x256_S12000x256_1_0_0_1_n_n_wf : DotDims.WF S12000x256 S256x256 S12000x256 [1] [0] [0] [1] [] []
  dot_S12000x256_S256x40_S12000x40_1_0_0_1_n_n_wf : DotDims.WF S12000x256 S256x40 S12000x40 [1] [0] [0] [1] [] []

variable [Facts₀]

def dot_S12000x12000_S12000x256_S12000x256_1_0_0_1_n_n : DotDims S12000x12000 S12000x256 S12000x256 where
  lhsContracting := [1]
  rhsContracting := [0]
  lhsNonContracting := [0]
  rhsNonContracting := [1]
  lhsBatch := []
  rhsBatch := []
  wf := dot_S12000x12000_S12000x256_S12000x256_1_0_0_1_n_n_wf
def dot_S12000x256_S256x256_S12000x256_1_0_0_1_n_n : DotDims S12000x256 S256x256 S12000x256 where
  lhsContracting := [1]
  rhsContracting := [0]
  lhsNonContracting := [0]
  rhsNonContracting := [1]
  lhsBatch := []
  rhsBatch := []
  wf := dot_S12000x256_S256x256_S12000x256_1_0_0_1_n_n_wf
def dot_S12000x256_S256x40_S12000x40_1_0_0_1_n_n : DotDims S12000x256 S256x40 S12000x40 where
  lhsContracting := [1]
  rhsContracting := [0]
  lhsNonContracting := [0]
  rhsNonContracting := [1]
  lhsBatch := []
  rhsBatch := []
  wf := dot_S12000x256_S256x40_S12000x40_1_0_0_1_n_n_wf

class Facts : Prop extends Facts₀ where

variable [Facts]
-- ==== Proof.SageSpec.lean ====
/-
  The mathematics both programs compute, stated once over the extended reals.

  One GraphSAGE-style layer takes the adjacency matrix `adj` (12000 × 12000), node features `h` (12000 × 256),
  a weight matrix `W` (256 × n) and a bias row `b` (n). Row `r` of its result depends on `adj` only through
  row `r`, so everything is written for ONE adjacency row `a : Fin 12000 → EReal`:

  * `agg a h j  = ∑ k, a k · h[k, j]`                         the neighbourhood aggregate (adj @ h), one row;
  * `lin a h W b l = (∑ j, agg a h j · W[j, l]) + b l`         the linear map and the bias;
  * `act = max lin 0`                                          the rectifier;
  * `nrm = max (√ ∑ l, act l · act l) ε`                       the row's clamped Euclidean norm;
  * `hid = act / nrm`                                          the normalized hidden row.

  A hidden layer is `hid` at every row, the output layer is `lin` at every row. The sums are plain finite sums in
  one fixed order of nesting, the same on both sides, so no law of the extended reals beyond reindexing is needed.
-/
import Idealize.ShloMosaic.PureOps.Ideal
import Idealize.ShloMosaic.Lib.ValueIdx

noncomputable section

namespace Cert.Sage

open Idealize.ShloMosaic Idealize.ShloMosaic.ValueIdx

/-- The literal shapes. -/
abbrev SAdj : Shape := ⟨2, ![12000, 12000]⟩
abbrev SFeat : Shape := ⟨2, ![12000, 256]⟩
abbrev SW (n : Nat) : Shape := ⟨2, ![256, n]⟩
abbrev SOut (n : Nat) : Shape := ⟨2, ![12000, n]⟩

/-- The rectifier's threshold and the norm's floor, as the words both programs print (never evaluated). -/
abbrev zeroW : EReal := Ideal.ofBits .f32 0x00000000#32
abbrev epsW : EReal := Ideal.ofBits .f32 0x2B8CBCCC#32

/-- One row of `adj @ h`: the aggregate of the features of the row's neighbours, weighted by the adjacency row. -/
def agg (a : Fin 12000 → EReal) (h : SFeat.Idx → EReal) (j : Fin 256) : EReal :=
  ∑ k : Fin 12000, a k * h (ix2 k j)

/-- One row of `(adj @ h) @ W + b`. -/
def lin {n : Nat} (a : Fin 12000 → EReal) (h : SFeat.Idx → EReal) (W : (SW n).Idx → EReal) (b : Fin n → EReal) (l : Fin n) : EReal :=
  (∑ j : Fin 256, agg a h j * W (ix2 j l)) + b l

/-- The rectified row. -/
def act (a : Fin 12000 → EReal) (h : SFeat.Idx → EReal) (W : (SW 256).Idx → EReal) (b : Fin 256 → EReal) (l : Fin 256) : EReal :=
  max (lin a h W b l) zeroW

/-- The rectified row's Euclidean norm, clamped below by ε. -/
def nrm (a : Fin 12000 → EReal) (h : SFeat.Idx → EReal) (W : (SW 256).Idx → EReal) (b : Fin 256 → EReal) : EReal :=
  max (Ideal.sqrt (∑ k : Fin 256, act a h W b k * act a h W b k)) epsW

/-- The normalized hidden row. -/
def hid (a : Fin 12000 → EReal) (h : SFeat.Idx → EReal) (W : (SW 256).Idx → EReal) (b : Fin 256 → EReal) (l : Fin 256) : EReal :=
  Ideal.div (act a h W b l) (nrm a h W b)

/-- Row `r` of the adjacency matrix. -/
abbrev adjRow (adj : SAdj.Idx → EReal) (r : Fin 12000) : Fin 12000 → EReal := fun k => adj (ix2 r k)

/-- A hidden layer: every row rectified and normalized. -/
def hidden (adj : SAdj.Idx → EReal) (h : SFeat.Idx → EReal) (W : (SW 256).Idx → EReal) (b : Fin 256 → EReal) : SFeat.Idx → EReal :=
  fun i => hid (adjRow adj ⟨(i 0).val, (i 0).isLt⟩) h W b ⟨(i 1).val, (i 1).isLt⟩

/-- The output layer: the linear map and bias only. -/
def logits {n : Nat} (adj : SAdj.Idx → EReal) (h : SFeat.Idx → EReal) (W : (SW n).Idx → EReal) (b : Fin n → EReal) : (SOut n).Idx → EReal :=
  fun i => lin (adjRow adj ⟨(i 0).val, (i 0).isLt⟩) h W b ⟨(i 1).val, (i 1).isLt⟩

theorem hidden_apply (adj : SAdj.Idx → EReal) (h : SFeat.Idx → EReal) (W : (SW 256).Idx → EReal) (b : Fin 256 → EReal)
    (r : Fin 12000) (l : Fin 256) : hidden adj h W b (ix2 r l) = hid (adjRow adj r) h W b l := rfl

theorem logits_apply {n : Nat} (adj : SAdj.Idx → EReal) (h : SFeat.Idx → EReal) (W : (SW n).Idx → EReal) (b : Fin n → EReal)
    (r : Fin 12000) (l : Fin n) : logits adj h W b (ix2 r l) = lin (adjRow adj r) h W b l := rfl

/-- A rank-one array (a bias) as a function of its one coordinate. -/
abbrev vec {n : Nat} (x : (⟨1, ![n]⟩ : Shape).Idx → EReal) : Fin n → EReal := fun l => x (ix1 l)

/-- Row 0 of a one-row array (a bias reshaped to 1 × n) as a function of the column. -/
abbrev row0 {n : Nat} (x : (⟨2, ![1, n]⟩ : Shape).Idx → EReal) : Fin n → EReal := fun l => x (ix2 (0 : Fin 1) l)

/-- The whole network: two hidden layers and the output layer over the same adjacency matrix. -/
def net (adj : SAdj.Idx → EReal) (x : SFeat.Idx → EReal) (W0 : (SW 256).Idx → EReal) (b0 : Fin 256 → EReal)
    (W1 : (SW 256).Idx → EReal) (b1 : Fin 256 → EReal) (W2 : (SW 40).Idx → EReal) (b2 : Fin 40 → EReal) : (SOut 40).Idx → EReal :=
  logits adj (hidden adj (hidden adj x W0 b0) W1 b1) W2 b2

end Cert.Sage

end
-- ==== Proof.LibColumnForms.lean ====
/-
  The two column forms a row reduction that keeps its axis needs, read at an index built from coordinates: a vector
  `[a]` reshaped to the column `[a, 1]`, and a column `[a, 1]` broadcast over the `b` lanes of `[a, b]`. Together they say
  that "reduce each row, keep the axis, broadcast back" puts row `p`'s reduced value at every `(p, c)`.
-/
import Idealize.ShloMosaic.Lib.Pipeline.Value
import Idealize.ShloMosaic.Lib.ValueIdx

namespace Cert.Lib

open Idealize.ShloMosaic Idealize.ShloMosaic.ValueIdx

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelRows.lean ====
import proofs.«126285_j35330400977322_1_alg».proof.Proof.Gen.KernelIdeal.Skeleton
import proofs.«126285_j35330400977322_1_alg».proof.Proof.SageSpec
import proofs.«126285_j35330400977322_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Ker

open Idealize.ShloMosaic Idealize.ShloMosaic.ValueIdx Cert.KernelIdeal Cert.KernelIdeal.Gen Cert.Sage Cert.Lib

/-! ## The three products read at an index

Each body multiplies twice, into a zero accumulator: the block's adjacency rows by the feature array (contracting the
12000 nodes), and the aggregate by the weights (contracting the 256 features). Read at `(p, l)` a product is the sum
over its one contraction coordinate `k` of the left operand at `(p, k)` times the right operand at `(k, l)`. -/

theorem lhs_aggProd_0 (i : S120x256.Idx) (q : dot_S120x12000_S12000x256_S120x256_1_0_0_1_n_n.contr.Idx) :
    (dot_S120x12000_S12000x256_S120x256_1_0_0_1_n_n.lhsIdx i q 0).val = (i 0).val := by
  unfold DotDims.lhsIdx
  rw [dif_neg (show ¬(0 : Fin S120x12000.rank) ∈ dot_S120x12000_S12000x256_S120x256_1_0_0_1_n_n.lhsBatch by decide), dif_pos (show (0 : Fin S120x12000.rank) ∈ dot_S120x12000_S12000x256_S120x256_1_0_0_1_n_n.lhsNonContracting by decide)]
  rfl
theorem lhs_aggProd_1 (i : S120x256.Idx) (q : dot_S120x12000_S12000x256_S120x256_1_0_0_1_n_n.contr.Idx) :
    (dot_S120x12000_S12000x256_S120x256_1_0_0_1_n_n.lhsIdx i q 1).val = (q ⟨0, by decide⟩).val :=
  dot_S120x12000_S12000x256_S120x256_1_0_0_1_n_n.lhsIdx_val_of_single rfl i q
theorem rhs_aggProd_0 (i : S120x256.Idx) (q : dot_S120x12000_S12000x256_S120x256_1_0_0_1_n_n.contr.Idx) :
    (dot_S120x12000_S12000x256_S120x256_1_0_0_1_n_n.rhsIdx i q 0).val = (q ⟨0, by decide⟩).val :=
  dot_S120x12000_S12000x256_S120x256_1_0_0_1_n_n.rhsIdx_val_of_single rfl i q
theorem rhs_aggProd_1 (i : S120x256.Idx) (q : dot_S120x12000_S12000x256_S120x256_1_0_0_1_n_n.contr.Idx) :
    (dot_S120x12000_S12000x256_S120x256_1_0_0_1_n_n.rhsIdx i q 1).val = (i 1).val := by
  unfold DotDims.rhsIdx
  rw [dif_neg (show ¬(1 : Fin S12000x256.rank) ∈ dot_S120x12000_S12000x256_S120x256_1_0_0_1_n_n.rhsBatch by decide), dif_pos (show (1 : Fin S12000x256.rank) ∈ dot_S120x12000_S12000x256_S120x256_1_0_0_1_n_n.rhsNonContracting by decide)]
  rfl

/-- The aggregate: adjacency rows times features, at row `p`, feature `l`, is the sum over the 12000 nodes. -/
theorem aggProd_apply (A : FVec Ideal S120x12000 .bf16) (B : FVec Ideal S12000x256 .bf16) (p : Fin 120) (l : Fin 256) :
    matmul dot_S120x12000_S12000x256_S120x256_1_0_0_1_n_n none A B (constant (F := Ideal) S120x256 .f32 0x00000000#32) (ix2 p l)
      = ∑ k : Fin 12000, A (ix2 p k) * B (ix2 k l) := by
  refine (Ideal.matmul_constant_zero_apply dot_S120x12000_S12000x256_S120x256_1_0_0_1_n_n none A B (ix2 p l)).trans ?_
  rw [← Equiv.sum_comp (ValueIdx.contrEquiv1 dot_S120x12000_S12000x256_S120x256_1_0_0_1_n_n 12000 rfl rfl).symm]
  refine Finset.sum_congr rfl fun k _ => ?_
  have hk := ValueIdx.contrEquiv1_symm_val dot_S120x12000_S12000x256_S120x256_1_0_0_1_n_n 12000 rfl rfl k
  have el : dot_S120x12000_S12000x256_S120x256_1_0_0_1_n_n.lhsIdx (ix2 p l) ((ValueIdx.contrEquiv1 dot_S120x12000_S12000x256_S120x256_1_0_0_1_n_n 12000 rfl rfl).symm k) = ix2 p k := funext fun a => Fin.ext (by
    match a with
    | ⟨0, _⟩ => exact lhs_aggProd_0 _ _
    | ⟨1, _⟩ => exact (lhs_aggProd_1 _ _).trans hk)
  have er : dot_S120x12000_S12000x256_S120x256_1_0_0_1_n_n.rhsIdx (ix2 p l) ((ValueIdx.contrEquiv1 dot_S120x12000_S12000x256_S120x256_1_0_0_1_n_n 12000 rfl rfl).symm k) = ix2 k l := funext fun a => Fin.ext (by
    match a with
    | ⟨0, _⟩ => exact (rhs_aggProd_0 _ _).trans hk
    | ⟨1, _⟩ => exact rhs_aggProd_1 _ _)
  rw [el, er]

theorem lhs_hidProd_0 (i : S120x256.Idx) (q : dot_S120x256_S256x256_S120x256_1_0_0_1_n_n.contr.Idx) :
    (dot_S120x256_S256x256_S120x256_1_0_0_1_n_n.lhsIdx i q 0).val = (i 0).val := by
  unfold DotDims.lhsIdx
  rw [dif_neg (show ¬(0 : Fin S120x256.rank) ∈ dot_S120x256_S256x256_S120x256_1_0_0_1_n_n.lhsBatch by decide), dif_pos (show (0 : Fin S120x256.rank) ∈ dot_S120x256_S256x256_S120x256_1_0_0_1_n_n.lhsNonContracting by decide)]
  rfl
theorem lhs_hidProd_1 (i : S120x256.Idx) (q : dot_S120x256_S256x256_S120x256_1_0_0_1_n_n.contr.Idx) :
    (dot_S120x256_S256x256_S120x256_1_0_0_1_n_n.lhsIdx i q 1).val = (q ⟨0, by decide⟩).val :=
  dot_S120x256_S256x256_S120x256_1_0_0_1_n_n.lhsIdx_val_of_single rfl i q
theorem rhs_hidProd_0 (i : S120x256.Idx) (q : dot_S120x256_S256x256_S120x256_1_0_0_1_n_n.contr.Idx) :
    (dot_S120x256_S256x256_S120x256_1_0_0_1_n_n.rhsIdx i q 0).val = (q ⟨0, by decide⟩).val :=
  dot_S120x256_S256x256_S120x256_1_0_0_1_n_n.rhsIdx_val_of_single rfl i q
theorem rhs_hidProd_1 (i : S120x256.Idx) (q : dot_S120x256_S256x256_S120x256_1_0_0_1_n_n.contr.Idx) :
    (dot_S120x256_S256x256_S120x256_1_0_0_1_n_n.rhsIdx i q 1).val = (i 1).val := by
  unfold DotDims.rhsIdx
  rw [dif_neg (show ¬(1 : Fin S256x256.rank) ∈ dot_S120x256_S256x256_S120x256_1_0_0_1_n_n.rhsBatch by decide), dif_pos (show (1 : Fin S256x256.rank) ∈ dot_S120x256_S256x256_S120x256_1_0_0_1_n_n.rhsNonContracting by decide)]
  rfl

/-- A hidden layer's linear map: aggregate times weights, at row `p`, unit `l`, is the sum over the 256 features. -/
theorem hidProd_apply (A : FVec Ideal S120x256 .bf16) (B : FVec Ideal S256x256 .bf16) (p : Fin 120) (l : Fin 256) :
    matmul dot_S120x256_S256x256_S120x256_1_0_0_1_n_n none A B (constant (F := Ideal) S120x256 .f32 0x00000000#32) (ix2 p l)
      = ∑ k : Fin 256, A (ix2 p k) * B (ix2 k l) := by
  refine (Ideal.matmul_constant_zero_apply dot_S120x256_S256x256_S120x256_1_0_0_1_n_n none A B (ix2 p l)).trans ?_
  rw [← Equiv.sum_comp (ValueIdx.contrEquiv1 dot_S120x256_S256x256_S120x256_1_0_0_1_n_n 256 rfl rfl).symm]
  refine Finset.sum_congr rfl fun k _ => ?_
  have hk := ValueIdx.contrEquiv1_symm_val dot_S120x256_S256x256_S120x256_1_0_0_1_n_n 256 rfl rfl k
  have el : dot_S120x256_S256x256_S120x256_1_0_0_1_n_n.lhsIdx (ix2 p l) ((ValueIdx.contrEquiv1 dot_S120x256_S256x256_S120x256_1_0_0_1_n_n 256 rfl rfl).symm k) = ix2 p k := funext fun a => Fin.ext (by
    match a with
    | ⟨0, _⟩ => exact lhs_hidProd_0 _ _
    | ⟨1, _⟩ => exact (lhs_hidProd_1 _ _).trans hk)
  have er : dot_S120x256_S256x256_S120x256_1_0_0_1_n_n.rhsIdx (ix2 p l) ((ValueIdx.contrEquiv1 dot_S120x256_S256x256_S120x256_1_0_0_1_n_n 256 rfl rfl).symm k) = ix2 k l := funext fun a => Fin.ext (by
    match a with
    | ⟨0, _⟩ => exact (rhs_hidProd_0 _ _).trans hk
    | ⟨1, _⟩ => exact rhs_hidProd_1 _ _)
  rw [el, er]

theorem lhs_outProd_0 (i : S120x40.Idx) (q : dot_S120x256_S256x40_S120x40_1_0_0_1_n_n.contr.Idx) :
    (dot_S120x256_S256x40_S120x40_1_0_0_1_n_n.lhsIdx i q 0).val = (i 0).val := by
  unfold DotDims.lhsIdx
  rw [dif_neg (show ¬(0 : Fin S120x256.rank) ∈ dot_S120x256_S256x40_S120x40_1_0_0_1_n_n.lhsBatch by decide), dif_pos (show (0 : Fin S120x256.rank) ∈ dot_S120x256_S256x40_S120x40_1_0_0_1_n_n.lhsNonContracting by decide)]
  rfl
theorem lhs_outProd_1 (i : S120x40.Idx) (q : dot_S120x256_S256x40_S120x40_1_0_0_1_n_n.contr.Idx) :
    (dot_S120x256_S256x40_S120x40_1_0_0_1_n_n.lhsIdx i q 1).val = (q ⟨0, by decide⟩).val :=
  dot_S120x256_S256x40_S120x40_1_0_0_1_n_n.lhsIdx_val_of_single rfl i q
theorem rhs_outProd_0 (i : S120x40.Idx) (q : dot_S120x256_S256x40_S120x40_1_0_0_1_n_n.contr.Idx) :
    (dot_S120x256_S256x40_S120x40_1_0_0_1_n_n.rhsIdx i q 0).val = (q ⟨0, by decide⟩).val :=
  dot_S120x256_S256x40_S120x40_1_0_0_1_n_n.rhsIdx_val_of_single rfl i q
theorem rhs_outProd_1 (i : S120x40.Idx) (q : dot_S120x256_S256x40_S120x40_1_0_0_1_n_n.contr.Idx) :
    (dot_S120x256_S256x40_S120x40_1_0_0_1_n_n.rhsIdx i q 1).val = (i 1).val := by
  unfold DotDims.rhsIdx
  rw [dif_neg (show ¬(1 : Fin S256x40.rank) ∈ dot_S120x256_S256x40_S120x40_1_0_0_1_n_n.rhsBatch by decide), dif_pos (show (1 : Fin S256x40.rank) ∈ dot_S120x256_S256x40_S120x40_1_0_0_1_n_n.rhsNonContracting by decide)]
  rfl

/-- The output layer's linear map: aggregate times weights, at row `p`, class `l`, is the sum over the 256 features. -/
theorem outProd_apply (A : FVec Ideal S120x256 .bf16) (B : FVec Ideal S256x40 .bf16) (p : Fin 120) (l : Fin 40) :
    matmul dot_S120x256_S256x40_S120x40_1_0_0_1_n_n none A B (constant (F := Ideal) S120x40 .f32 0x00000000#32) (ix2 p l)
      = ∑ k : Fin 256, A (ix2 p k) * B (ix2 k l) := by
  refine (Ideal.matmul_constant_zero_apply dot_S120x256_S256x40_S120x40_1_0_0_1_n_n none A B (ix2 p l)).trans ?_
  rw [← Equiv.sum_comp (ValueIdx.contrEquiv1 dot_S120x256_S256x40_S120x40_1_0_0_1_n_n 256 rfl rfl).symm]
  refine Finset.sum_congr rfl fun k _ => ?_
  have hk := ValueIdx.contrEquiv1_symm_val dot_S120x256_S256x40_S120x40_1_0_0_1_n_n 256 rfl rfl k
  have el : dot_S120x256_S256x40_S120x40_1_0_0_1_n_n.lhsIdx (ix2 p l) ((ValueIdx.contrEquiv1 dot_S120x256_S256x40_S120x40_1_0_0_1_n_n 256 rfl rfl).symm k) = ix2 p k := funext fun a => Fin.ext (by
    match a with
    | ⟨0, _⟩ => exact lhs_outProd_0 _ _
    | ⟨1, _⟩ => exact (lhs_outProd_1 _ _).trans hk)
  have er : dot_S120x256_S256x40_S120x40_1_0_0_1_n_n.rhsIdx (ix2 p l) ((ValueIdx.contrEquiv1 dot_S120x256_S256x40_S120x40_1_0_0_1_n_n 256 rfl rfl).symm k) = ix2 k l := funext fun a => Fin.ext (by
    match a with
    | ⟨0, _⟩ => exact (rhs_outProd_0 _ _).trans hk
    | ⟨1, _⟩ => exact rhs_outProd_1 _ _)
  rw [el, er]

/-! ## The lane sum -/

/-- The sum along the lanes of a 120 × 256 block, at row `p`, is the sum over the row's 256 entries. -/
theorem rowSum_apply (X : FVec Ideal S120x256 .f32) (hφ : FKind.Formats .f32)
    (hacc : (0x00000000#32 : BitVec 32) = 0x00000000#32) (p : Fin 120) :
    multiReduction (F := Ideal) .add [1] S120 X 0x00000000#32 reduces_S120x256_S120 hφ hacc (ix1 p)
      = ∑ k : Fin 256, X (ix2 p k) := by
  refine (Ideal.multiReduction_add_single X 0x00000000#32 reduces_S120x256_S120 hφ hacc (ix1 p)).trans ?_
  exact Finset.sum_congr rfl fun k _ => congrArg X (funext fun a => Fin.ext (by
    match a with
    | ⟨0, _⟩ => rfl
    | ⟨1, _⟩ => rfl))

/-! ## The linear map and the bias

The body narrows each product's operands to bf16 first; on the extended reals a change of format is the identity, so the
first product at `(p, j)` is the aggregate `agg` of the block's adjacency row `p`, and the second, plus the bias row broadcast
over the rows, is `lin`. -/

/-- The aggregate at row `p`, feature `j`. -/
theorem aggRow_apply (v0 : FVec Ideal S120x12000 .f32) (v2 : FVec Ideal S12000x256 .f32) (p : Fin 120) (j : Fin 256) :
    matmul dot_S120x12000_S12000x256_S120x256_1_0_0_1_n_n none (truncf .bf16 v0 bitsLt_bf16_f32) (truncf .bf16 v2 bitsLt_bf16_f32)
        (constant (F := Ideal) S120x256 .f32 0x00000000#32) (ix2 p j)
      = agg (fun k => v0 (ix2 p k)) v2 j :=
  aggProd_apply _ _ p j

/-- A hidden layer's row before the rectifier: the linear map of the aggregate plus the bias. -/
theorem linRow_apply (v0 : FVec Ideal S120x12000 .f32) (v2 : FVec Ideal S12000x256 .f32) (v5 : FVec Ideal S256x256 .f32)
    (v9 : FVec Ideal S1x256 .f32) (p : Fin 120) (l : Fin 256) :
    addf (matmul dot_S120x256_S256x256_S120x256_1_0_0_1_n_n none
            (truncf .bf16 (matmul dot_S120x12000_S12000x256_S120x256_1_0_0_1_n_n none (truncf .bf16 v0 bitsLt_bf16_f32) (truncf .bf16 v2 bitsLt_bf16_f32)
              (constant (F := Ideal) S120x256 .f32 0x00000000#32)) bitsLt_bf16_f32)
            (truncf .bf16 v5 bitsLt_bf16_f32) (constant (F := Ideal) S120x256 .f32 0x00000000#32))
         (broadcastTo S120x256 v9 broadcasts_S1x256_S120x256) (ix2 p l)
      = lin (fun k => v0 (ix2 p k)) v2 v5 (row0 v9) l := by
  unfold lin
  refine congrArg₂ (· + ·) ?_ (broadcastTo_1b_ab_apply v9 _ p l)
  refine (hidProd_apply _ _ p l).trans (Finset.sum_congr rfl fun j _ => ?_)
  exact congrArg (· * v5 (ix2 j l)) (aggRow_apply v0 v2 p j)

/-! ## The rectified, normalized row

After the bias a hidden body rectifies the block, sums each row's squares along the lanes, takes the root, clamps it
below by ε, and divides the rectified block by that column broadcast back over the lanes. Row by row this is `hid`. -/

/-- A block divided by a column broadcast over its lanes reads, at `(p, l)`, the block's entry over the column's entry of row `p`. -/
theorem divCol_apply (Y : FVec Ideal S120x256 .f32) (N : FVec Ideal S120x1 .f32) (p : Fin 120) (l : Fin 256) :
    divf Y (broadcastTo S120x256 N broadcasts_S120x1_S120x256) (ix2 p l) = Ideal.div (Y (ix2 p l)) (N (ix2 p (0 : Fin 1))) :=
  congrArg (Ideal.div (Y (ix2 p l))) (broadcastTo_a1_ab_apply N _ p l)

/-- The clamped Euclidean norm of row `p` of a block, as the column the body builds. -/
theorem normCol_apply (Y : FVec Ideal S120x256 .f32) (hφ : FKind.Formats .f32)
    (hacc : (0x00000000#32 : BitVec 32) = 0x00000000#32) (p : Fin 120) :
    maximumf (sqrt (shapeCast S120x1 (multiReduction (F := Ideal) .add [1] S120 (mulf Y Y) 0x00000000#32
          reduces_S120x256_S120 hφ hacc) shapeCasts_S120_S120x1))
        (broadcast S120x1 (Scalar.ofBits (F := Ideal) .f32 0x2B8CBCCC#32)) (ix2 p (0 : Fin 1))
      = max (Ideal.sqrt (∑ k : Fin 256, Y (ix2 p k) * Y (ix2 p k))) epsW :=
  congrArg (fun z => max (Ideal.sqrt z) epsW)
    ((shapeCast_a_a1_apply _ shapeCasts_S120_S120x1 p 0).trans (rowSum_apply (mulf Y Y) hφ hacc p))

/-- The tail of a hidden body over a block `X` whose row `p` is `lin` of some operands: its row `p` is `hid` of them. -/
theorem hidRow_apply (X : FVec Ideal S120x256 .f32) (hφ : FKind.Formats .f32)
    (hacc : (0x00000000#32 : BitVec 32) = 0x00000000#32) (p : Fin 120) (l : Fin 256)
    (a : Fin 12000 → EReal) (h : SFeat.Idx → EReal) (W : (SW 256).Idx → EReal) (b : Fin 256 → EReal)
    (hX : ∀ k, X (ix2 p k) = lin a h W b k) :
    divf (maximumf X (broadcast S120x256 (Scalar.ofBits (F := Ideal) .f32 0x00000000#32)))
      (broadcastTo S120x256
        (maximumf (sqrt (shapeCast S120x1 (multiReduction (F := Ideal) .add [1] S120
            (mulf (maximumf X (broadcast S120x256 (Scalar.ofBits (F := Ideal) .f32 0x00000000#32)))
                  (maximumf X (broadcast S120x256 (Scalar.ofBits (F := Ideal) .f32 0x00000000#32))))
            0x00000000#32 reduces_S120x256_S120 hφ hacc) shapeCasts_S120_S120x1))
          (broadcast S120x1 (Scalar.ofBits (F := Ideal) .f32 0x2B8CBCCC#32)))
        broadcasts_S120x1_S120x256) (ix2 p l)
      = hid a h W b l := by
  have hY : ∀ k, maximumf X (broadcast S120x256 (Scalar.ofBits (F := Ideal) .f32 0x00000000#32)) (ix2 p k) = act a h W b k :=
    fun k => congrArg (max · zeroW) (hX k)
  refine (divCol_apply _ _ p l).trans ?_
  unfold hid
  refine congrArg₂ Ideal.div (hY l) ?_
  refine (normCol_apply _ hφ hacc p).trans ?_
  unfold nrm
  exact congrArg (fun z => max (Ideal.sqrt z) epsW)
    (Finset.sum_congr rfl fun k _ => congrArg₂ (· * ·) (hY k) (hY k))

/-- The first hidden layer's body, read at row `p`, column `l` of its 120-row block: the normalized hidden row of the
    block's adjacency row `p` over the whole feature array, the weights and the bias row. -/
theorem pay0_apply (v0 : Vec Ideal S120x12000 .f32) (v2 : Vec Ideal S12000x256 .f32) (v5 : Vec Ideal S256x256 .f32)
    (v9 : Vec Ideal S1x256 .f32) (p : Fin 120) (l : Fin 256) :
    k0_pay1 (F := Ideal) v0 v2 v5 v9 (ix2 p l) = hid (fun k => v0 (ix2 p k)) v2 v5 (row0 v9) l := by
  unfold k0_pay1
  rw [shapeCast_self v9]
  exact hidRow_apply _ _ _ p l _ _ _ _ fun k => linRow_apply v0 v2 v5 v9 p k

/-- The second hidden layer's body: the same function of its own operands. -/
theorem pay1_apply (v0 : Vec Ideal S120x12000 .f32) (v2 : Vec Ideal S12000x256 .f32) (v6 : Vec Ideal S256x256 .f32)
    (v10 : Vec Ideal S1x256 .f32) (p : Fin 120) (l : Fin 256) :
    k1_pay1 (F := Ideal) v0 v2 v6 v10 (ix2 p l) = hid (fun k => v0 (ix2 p k)) v2 v6 (row0 v10) l := by
  unfold k1_pay1
  rw [shapeCast_self v2, shapeCast_self v10]
  exact hidRow_apply _ _ _ p l _ _ _ _ fun k => linRow_apply v0 v2 v6 v10 p k

/-- The output layer's body: the linear map and bias of the block's adjacency row `p`. -/
theorem pay2_apply (v0 : Vec Ideal S120x12000 .f32) (v2 : Vec Ideal S12000x256 .f32) (v6 : Vec Ideal S256x40 .f32)
    (v10 : Vec Ideal S1x40 .f32) (p : Fin 120) (l : Fin 40) :
    k2_pay1 (F := Ideal) v0 v2 v6 v10 (ix2 p l) = lin (fun k => v0 (ix2 p k)) v2 v6 (row0 v10) l := by
  unfold k2_pay1
  rw [shapeCast_self v2, shapeCast_self v10]
  unfold lin
  refine congrArg₂ (· + ·) ?_ (broadcastTo_1b_ab_apply v10 _ p l)
  refine (outProd_apply _ _ p l).trans (Finset.sum_congr rfl fun j _ => ?_)
  exact congrArg (· * v6 (ix2 j l)) (aggRow_apply v0 v2 p j)

end Cert.Sage.Ker

end
-- ==== Proof.Region0.lean ====
import proofs.«126285_j35330400977322_1_alg».proof.Proof.Gen.KernelIdeal.Frame
import proofs.«126285_j35330400977322_1_alg».proof.Proof.KernelRows
import Idealize.ShloMosaic.Lib.Pipeline.Value
import Idealize.ShloMosaic.Lib.ValueIdx

set_option maxRecDepth 16384

noncomputable section

namespace Cert.Sage.Reg0

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The first hidden layer's region -/

/-- Over the 100 grid points: the adjacency window and the output window sit at row block `t`; the features, the
    weights and the bias row are whole-array windows at block 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency block at point `t` is rows `120 t … 120 t + 119` of the adjacency matrix. -/
theorem adj_blk (c : Dev nD) (t : Fin cfg0.N) (p : Fin 120) (k : Fin 12000) (r : Fin 12000) (hr : r.val = t.val * 120 + p.val) :
    iblk0 V c 0 t (ix2 p k) = V c main_arg0 (ix2 r k) := by
  obtain ⟨e0, e1, -⟩ := idx t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 120 + 1 * p.val = r.val; omega
  | ⟨1, _⟩ => show win0_0.index t (1 : Fin 2) * 12000 + 1 * k.val = k.val; omega

/-- The feature window's block is the whole feature array. -/
theorem feat_blk (c : Dev nD) (t : Fin cfg0.N) : (iblk0 V c 1 t : Vec Ideal S12000x256 .f32) = V c main_arg1 := by
  obtain ⟨-, -, e0, e1, -⟩ := idx t
  funext y
  show V c main_arg1 (((cfg0.win 1).blk t).view.emb y) = V c main_arg1 y
  refine congrArg (V c main_arg1) (funext fun a => Fin.ext ?_)
  match a with
  | ⟨0, _⟩ => show win0_1.index t (0 : Fin 2) * 12000 + 1 * (y 0).val = (y 0).val; omega
  | ⟨1, _⟩ => show win0_1.index t (1 : Fin 2) * 256 + 1 * (y 1).val = (y 1).val; omega

/-- The weight window's block is the whole weight matrix. -/
theorem w_blk (c : Dev nD) (t : Fin cfg0.N) : (iblk0 V c 2 t : Vec Ideal S256x256 .f32) = V c main_arg2 := by
  obtain ⟨-, -, -, -, e0, e1, -⟩ := idx t
  funext y
  show V c main_arg2 (((cfg0.win 2).blk t).view.emb y) = V c main_arg2 y
  refine congrArg (V c main_arg2) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The bias window's block is the whole bias row. -/
theorem b_blk (c : Dev nD) (t : Fin cfg0.N) : (iblk0 V c 3 t : Vec Ideal S1x256 .f32) = V c main_v0 := by
  obtain ⟨-, -, -, -, -, -, e0, e1, -⟩ := idx t
  funext y
  show V c main_v0 (((cfg0.win 3).blk t).view.emb y) = V c main_v0 y
  refine congrArg (V c main_v0) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- What point `t` writes back is row block `t` of the hidden layer of the arrays as the region finds them. -/
theorem flushed (c : Dev nD) (t : Fin cfg0.N) :
    (dat0 V c).flushed 4 t = ((cfg0.win 4).blk t).view.read (Elt Ideal)
      (hidden (V c main_arg0) (V c main_arg1) (V c main_arg2) (row0 (V c main_v0))) := by
  show (cfg0.win 4).cut (grid0.coords t) ((dat0 V c).after 4 t) = _
  rw [after0_4]
  unfold out0_4
  rw [View.canon_unit_zero hz]
  simp only [View.ld_unit_zero (S := S120x12000) hz, View.ld_unit_zero (S := S12000x256) hz,
    View.ld_unit_zero (S := S256x256) hz, View.ld_unit_zero (S := S1x256) hz]
  rw [feat_blk V c t, w_blk V c t, b_blk V c t]
  funext j
  obtain ⟨p, l, rfl⟩ : ∃ (p : Fin 120) (l : Fin 256), j = ix2 p l := ⟨j 0, j 1, eq_ix2 j⟩
  have hN : t.val < 100 := lt_of_lt_of_eq t.isLt N_0
  have hp := p.isLt
  have hr : t.val * 120 + p.val < 12000 := by omega
  obtain ⟨-, -, -, -, -, -, -, -, e0, e1⟩ := idx t
  have he : ((cfg0.win 4).blk t).view.emb (ix2 p l) = ix2 (⟨t.val * 120 + p.val, hr⟩ : Fin 12000) l :=
    funext fun a => Fin.ext (by
      match a with
      | ⟨0, _⟩ => show win0_4.index t (0 : Fin 2) * 120 + 1 * p.val = t.val * 120 + p.val; omega
      | ⟨1, _⟩ => show win0_4.index t (1 : Fin 2) * 256 + 1 * l.val = l.val; omega)
  show k0_pay1 (F := Ideal) (iblk0 V c 0 t) (V c main_arg1) (V c main_arg2) (V c main_v0) (ix2 p l)
    = hidden (V c main_arg0) (V c main_arg1) (V c main_arg2) (row0 (V c main_v0)) (((cfg0.win 4).blk t).view.emb (ix2 p l))
  rw [he, hidden_apply]
  refine (Ker.pay0_apply (iblk0 V c 0 t) (V c main_arg1) (V c main_arg2) (V c main_v0) p l).trans ?_
  exact congrArg (fun a => hid a (V c main_arg1) (V c main_arg2) (row0 (V c main_v0)) l)
    (funext fun k => adj_blk V c t p k ⟨t.val * 120 + p.val, hr⟩ rfl)

/-- An index of the output array is in point `t`'s block iff each coordinate is in the block's range on its axis. -/
theorem mem_blk (t : Fin cfg0.N) (i : S12000x256.Idx) :
    i ∈ ((cfg0.win 4).blk t).view.set ↔ ∀ a : Fin 2, win0_4.index t a * S120x256.size a ≤ (i a).val ∧ (i a).val < win0_4.index t a * S120x256.size a + S120x256.size a := by
  show i ∈ ((View.whole main_v1).slice (win0_4.rect t)).set ↔ _
  rw [View.set_slice_whole, Rect.mem_set_unit]
  exact Iff.rfl

/-- The 100 row blocks tile the output array: row `r` lies in block `r / 120`. -/
theorem cover (i : S12000x256.Idx) : ∃ t : Fin cfg0.N, (cfg0.win 4).flush t = true ∧ i ∈ ((cfg0.win 4).blk t).view.set := by
  have hi0 : (i 0).val < 12000 := (i 0).isLt
  have hi1 : (i 1).val < 256 := (i 1).isLt
  have ht : (i 0).val / 120 < cfg0.N := by rw [show cfg0.N = 100 from N_0]; omega
  refine ⟨⟨(i 0).val / 120, ht⟩, flush0_4 _, ?_⟩
  obtain ⟨-, -, -, -, -, -, -, -, e0, e1⟩ := idx ⟨(i 0).val / 120, ht⟩
  rw [mem_blk]
  intro a
  match a with
  | ⟨0, _⟩ =>
    show win0_4.index ⟨(i 0).val / 120, ht⟩ (0 : Fin 2) * 120 ≤ (i 0).val ∧ (i 0).val < win0_4.index ⟨(i 0).val / 120, ht⟩ (0 : Fin 2) * 120 + 120
    rw [e0]; show (i 0).val / 120 * 120 ≤ (i 0).val ∧ (i 0).val < (i 0).val / 120 * 120 + 120; omega
  | ⟨1, _⟩ =>
    show win0_4.index ⟨(i 0).val / 120, ht⟩ (1 : Fin 2) * 256 ≤ (i 1).val ∧ (i 1).val < win0_4.index ⟨(i 0).val / 120, ht⟩ (1 : Fin 2) * 256 + 256
    rw [e1]; omega

/-- After the region its output array holds the hidden layer of the arrays as the region found them. -/
theorem final (c : Dev nD) :
    (dat0 V c).arrAt 4 cfg0.N = hidden (V c main_arg0) (V c main_arg1) (V c main_arg2) (row0 (V c main_v0)) :=
  (dat0 V c).arrAt_eq_of_cover 4 _ (fun t _ => flushed V c t) cover

end Cert.Sage.Reg0

end
-- ==== Proof.Region1.lean ====
import proofs.«126285_j35330400977322_1_alg».proof.Proof.Gen.KernelIdeal.Frame
import proofs.«126285_j35330400977322_1_alg».proof.Proof.KernelRows
import Idealize.ShloMosaic.Lib.Pipeline.Value
import Idealize.ShloMosaic.Lib.ValueIdx

set_option maxRecDepth 16384

noncomputable section

namespace Cert.Sage.Reg1

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The second hidden layer's region -/

/-- Over the 100 grid points: the adjacency window and the output window sit at row block `t`; the features, the
    weights and the bias row are whole-array windows at block 0. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point `t` is rows `120 t … 120 t + 119` of the adjacency matrix. -/
theorem adj_blk (c : Dev nD) (t : Fin cfg1.N) (p : Fin 120) (k : Fin 12000) (r : Fin 12000) (hr : r.val = t.val * 120 + p.val) :
    iblk1 V c 0 t (ix2 p k) = V c main_arg0 (ix2 r k) := by
  obtain ⟨e0, e1, -⟩ := idx t
  show V c main_arg0 (((cfg1.win 0).blk t).view.emb (ix2 p k)) = V c main_arg0 (ix2 r k)
  refine congrArg (V c main_arg0) (funext fun a => Fin.ext ?_)
  match a with
  | ⟨0, _⟩ => show win1_0.index t (0 : Fin 2) * 120 + 1 * p.val = r.val; omega
  | ⟨1, _⟩ => show win1_0.index t (1 : Fin 2) * 12000 + 1 * k.val = k.val; omega

/-- The feature window's block is the whole feature array. -/
theorem feat_blk (c : Dev nD) (t : Fin cfg1.N) : (iblk1 V c 1 t : Vec Ideal S12000x256 .f32) = V c main_v1 := by
  obtain ⟨-, -, e0, e1, -⟩ := idx t
  funext y
  show V c main_v1 (((cfg1.win 1).blk t).view.emb y) = V c main_v1 y
  refine congrArg (V c main_v1) (funext fun a => Fin.ext ?_)
  match a with
  | ⟨0, _⟩ => show win1_1.index t (0 : Fin 2) * 12000 + 1 * (y 0).val = (y 0).val; omega
  | ⟨1, _⟩ => show win1_1.index t (1 : Fin 2) * 256 + 1 * (y 1).val = (y 1).val; omega

/-- The weight window's block is the whole weight matrix. -/
theorem w_blk (c : Dev nD) (t : Fin cfg1.N) : (iblk1 V c 2 t : Vec Ideal S256x256 .f32) = V c main_arg4 := by
  obtain ⟨-, -, -, -, e0, e1, -⟩ := idx t
  funext y
  show V c main_arg4 (((cfg1.win 2).blk t).view.emb y) = V c main_arg4 y
  refine congrArg (V c main_arg4) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- The bias window's block is the whole bias row. -/
theorem b_blk (c : Dev nD) (t : Fin cfg1.N) : (iblk1 V c 3 t : Vec Ideal S1x256 .f32) = V c main_v2 := by
  obtain ⟨-, -, -, -, -, -, e0, e1, -⟩ := idx t
  funext y
  show V c main_v2 (((cfg1.win 3).blk t).view.emb y) = V c main_v2 y
  refine congrArg (V c main_v2) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- What point `t` writes back is row block `t` of the hidden layer of the arrays as the region finds them. -/
theorem flushed (c : Dev nD) (t : Fin cfg1.N) :
    (dat1 V c).flushed 4 t = ((cfg1.win 4).blk t).view.read (Elt Ideal)
      (hidden (V c main_arg0) (V c main_v1) (V c main_arg4) (row0 (V c main_v2))) := by
  show (cfg1.win 4).cut (grid1.coords t) ((dat1 V c).after 4 t) = _
  rw [after1_4]
  unfold out1_4
  rw [View.canon_unit_zero hz]
  simp only [View.ld_unit_zero (S := S120x12000) hz, View.ld_unit_zero (S := S12000x256) hz,
    View.ld_unit_zero (S := S256x256) hz, View.ld_unit_zero (S := S1x256) hz]
  rw [feat_blk V c t, w_blk V c t, b_blk V c t]
  funext j
  obtain ⟨p, l, rfl⟩ : ∃ (p : Fin 120) (l : Fin 256), j = ix2 p l := ⟨j 0, j 1, eq_ix2 j⟩
  have hN : t.val < 100 := lt_of_lt_of_eq t.isLt N_1
  have hp := p.isLt
  have hr : t.val * 120 + p.val < 12000 := by omega
  obtain ⟨-, -, -, -, -, -, -, -, e0, e1⟩ := idx t
  have he : ((cfg1.win 4).blk t).view.emb (ix2 p l) = ix2 (⟨t.val * 120 + p.val, hr⟩ : Fin 12000) l :=
    funext fun a => Fin.ext (by
      match a with
      | ⟨0, _⟩ => show win1_4.index t (0 : Fin 2) * 120 + 1 * p.val = t.val * 120 + p.val; omega
      | ⟨1, _⟩ => show win1_4.index t (1 : Fin 2) * 256 + 1 * l.val = l.val; omega)
  show k1_pay1 (F := Ideal) (iblk1 V c 0 t) (V c main_v1) (V c main_arg4) (V c main_v2) (ix2 p l)
    = hidden (V c main_arg0) (V c main_v1) (V c main_arg4) (row0 (V c main_v2)) (((cfg1.win 4).blk t).view.emb (ix2 p l))
  rw [he, hidden_apply]
  refine (Ker.pay1_apply (iblk1 V c 0 t) (V c main_v1) (V c main_arg4) (V c main_v2) p l).trans ?_
  exact congrArg (fun a => hid a (V c main_v1) (V c main_arg4) (row0 (V c main_v2)) l)
    (funext fun k => adj_blk V c t p k ⟨t.val * 120 + p.val, hr⟩ rfl)

/-- An index of the output array is in point `t`'s block iff each coordinate is in the block's range on its axis. -/
theorem mem_blk (t : Fin cfg1.N) (i : S12000x256.Idx) :
    i ∈ ((cfg1.win 4).blk t).view.set ↔ ∀ a : Fin 2, win1_4.index t a * S120x256.size a ≤ (i a).val ∧ (i a).val < win1_4.index t a * S120x256.size a + S120x256.size a := by
  show i ∈ ((View.whole main_v3).slice (win1_4.rect t)).set ↔ _
  rw [View.set_slice_whole, Rect.mem_set_unit]
  exact Iff.rfl

/-- The 100 row blocks tile the output array: row `r` lies in block `r / 120`. -/
theorem cover (i : S12000x256.Idx) : ∃ t : Fin cfg1.N, (cfg1.win 4).flush t = true ∧ i ∈ ((cfg1.win 4).blk t).view.set := by
  have hi0 : (i 0).val < 12000 := (i 0).isLt
  have hi1 : (i 1).val < 256 := (i 1).isLt
  have ht : (i 0).val / 120 < cfg1.N := by rw [show cfg1.N = 100 from N_1]; omega
  refine ⟨⟨(i 0).val / 120, ht⟩, flush1_4 _, ?_⟩
  obtain ⟨-, -, -, -, -, -, -, -, e0, e1⟩ := idx ⟨(i 0).val / 120, ht⟩
  rw [mem_blk]
  intro a
  match a with
  | ⟨0, _⟩ =>
    show win1_4.index ⟨(i 0).val / 120, ht⟩ (0 : Fin 2) * 120 ≤ (i 0).val ∧ (i 0).val < win1_4.index ⟨(i 0).val / 120, ht⟩ (0 : Fin 2) * 120 + 120
    rw [e0]; show (i 0).val / 120 * 120 ≤ (i 0).val ∧ (i 0).val < (i 0).val / 120 * 120 + 120; omega
  | ⟨1, _⟩ =>
    show win1_4.index ⟨(i 0).val / 120, ht⟩ (1 : Fin 2) * 256 ≤ (i 1).val ∧ (i 1).val < win1_4.index ⟨(i 0).val / 120, ht⟩ (1 : Fin 2) * 256 + 256
    rw [e1]; omega

/-- After the region its output array holds the hidden layer of the arrays as the region found them. -/
theorem final (c : Dev nD) :
    (dat1 V c).arrAt 4 cfg1.N = hidden (V c main_arg0) (V c main_v1) (V c main_arg4) (row0 (V c main_v2)) :=
  (dat1 V c).arrAt_eq_of_cover 4 _ (fun t _ => flushed V c t) cover

end Cert.Sage.Reg1

end
-- ==== Proof.Region2.lean ====
import proofs.«126285_j35330400977322_1_alg».proof.Proof.Gen.KernelIdeal.Frame
import proofs.«126285_j35330400977322_1_alg».proof.Proof.KernelRows
import Idealize.ShloMosaic.Lib.Pipeline.Value
import Idealize.ShloMosaic.Lib.ValueIdx

set_option maxRecDepth 16384

noncomputable section

namespace Cert.Sage.Reg2

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The output layer's region -/

/-- Over the 100 grid points: the adjacency window and the output window sit at row block `t`; the features, the
    weights and the bias row are whole-array windows at block 0. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The adjacency block at point `t` is rows `120 t … 120 t + 119` of the adjacency matrix. -/
theorem adj_blk (c : Dev nD) (t : Fin cfg2.N) (p : Fin 120) (k : Fin 12000) (r : Fin 12000) (hr : r.val = t.val * 120 + p.val) :
    iblk2 V c 0 t (ix2 p k) = V c main_arg0 (ix2 r k) := by
  obtain ⟨e0, e1, -⟩ := idx t
  show V c main_arg0 (((cfg2.win 0).blk t).view.emb (ix2 p k)) = V c main_arg0 (ix2 r k)
  refine congrArg (V c main_arg0) (funext fun a => Fin.ext ?_)
  match a with
  | ⟨0, _⟩ => show win2_0.index t (0 : Fin 2) * 120 + 1 * p.val = r.val; omega
  | ⟨1, _⟩ => show win2_0.index t (1 : Fin 2) * 12000 + 1 * k.val = k.val; omega

/-- The feature window's block is the whole feature array. -/
theorem feat_blk (c : Dev nD) (t : Fin cfg2.N) : (iblk2 V c 1 t : Vec Ideal S12000x256 .f32) = V c main_v3 := by
  obtain ⟨-, -, e0, e1, -⟩ := idx t
  funext y
  show V c main_v3 (((cfg2.win 1).blk t).view.emb y) = V c main_v3 y
  refine congrArg (V c main_v3) (funext fun a => Fin.ext ?_)
  match a with
  | ⟨0, _⟩ => show win2_1.index t (0 : Fin 2) * 12000 + 1 * (y 0).val = (y 0).val; omega
  | ⟨1, _⟩ => show win2_1.index t (1 : Fin 2) * 256 + 1 * (y 1).val = (y 1).val; omega

/-- The weight window's block is the whole weight matrix. -/
theorem w_blk (c : Dev nD) (t : Fin cfg2.N) : (iblk2 V c 2 t : Vec Ideal S256x40 .f32) = V c main_arg6 := by
  obtain ⟨-, -, -, -, e0, e1, -⟩ := idx t
  funext y
  show V c main_arg6 (((cfg2.win 2).blk t).view.emb y) = V c main_arg6 y
  refine congrArg (V c main_arg6) (funext fun a => Fin.ext ?_)
  match a with
  | ⟨0, _⟩ => show win2_2.index t (0 : Fin 2) * 256 + 1 * (y 0).val = (y 0).val; omega
  | ⟨1, _⟩ => show win2_2.index t (1 : Fin 2) * 40 + 1 * (y 1).val = (y 1).val; omega

/-- The bias window's block is the whole bias row. -/
theorem b_blk (c : Dev nD) (t : Fin cfg2.N) : (iblk2 V c 3 t : Vec Ideal S1x40 .f32) = V c main_v4 := by
  obtain ⟨-, -, -, -, -, -, e0, e1, -⟩ := idx t
  funext y
  show V c main_v4 (((cfg2.win 3).blk t).view.emb y) = V c main_v4 y
  refine congrArg (V c main_v4) (funext fun a => Fin.ext ?_)
  match a with
  | ⟨0, _⟩ => show win2_3.index t (0 : Fin 2) * 1 + 1 * (y 0).val = (y 0).val; omega
  | ⟨1, _⟩ => show win2_3.index t (1 : Fin 2) * 40 + 1 * (y 1).val = (y 1).val; omega

/-- What point `t` writes back is row block `t` of the output layer of the arrays as the region finds them. -/
theorem flushed (c : Dev nD) (t : Fin cfg2.N) :
    (dat2 V c).flushed 4 t = ((cfg2.win 4).blk t).view.read (Elt Ideal)
      (logits (V c main_arg0) (V c main_v3) (V c main_arg6) (row0 (V c main_v4))) := by
  show (cfg2.win 4).cut (grid2.coords t) ((dat2 V c).after 4 t) = _
  rw [after2_4]
  unfold out2_4
  rw [View.canon_unit_zero hz]
  simp only [View.ld_unit_zero (S := S120x12000) hz, View.ld_unit_zero (S := S12000x256) hz,
    View.ld_unit_zero (S := S256x40) hz, View.ld_unit_zero (S := S1x40) hz]
  rw [feat_blk V c t, w_blk V c t, b_blk V c t]
  funext j
  obtain ⟨p, l, rfl⟩ : ∃ (p : Fin 120) (l : Fin 40), j = ix2 p l := ⟨j 0, j 1, eq_ix2 j⟩
  have hN : t.val < 100 := lt_of_lt_of_eq t.isLt N_2
  have hp := p.isLt
  have hr : t.val * 120 + p.val < 12000 := by omega
  obtain ⟨-, -, -, -, -, -, -, -, e0, e1⟩ := idx t
  have he : ((cfg2.win 4).blk t).view.emb (ix2 p l) = ix2 (⟨t.val * 120 + p.val, hr⟩ : Fin 12000) l :=
    funext fun a => Fin.ext (by
      match a with
      | ⟨0, _⟩ => show win2_4.index t (0 : Fin 2) * 120 + 1 * p.val = t.val * 120 + p.val; omega
      | ⟨1, _⟩ => show win2_4.index t (1 : Fin 2) * 40 + 1 * l.val = l.val; omega)
  show k2_pay1 (F := Ideal) (iblk2 V c 0 t) (V c main_v3) (V c main_arg6) (V c main_v4) (ix2 p l)
    = logits (V c main_arg0) (V c main_v3) (V c main_arg6) (row0 (V c main_v4)) (((cfg2.win 4).blk t).view.emb (ix2 p l))
  rw [he, logits_apply]
  refine (Ker.pay2_apply (iblk2 V c 0 t) (V c main_v3) (V c main_arg6) (V c main_v4) p l).trans ?_
  exact congrArg (fun a => lin a (V c main_v3) (V c main_arg6) (row0 (V c main_v4)) l)
    (funext fun k => adj_blk V c t p k ⟨t.val * 120 + p.val, hr⟩ rfl)

/-- An index of the output array is in point `t`'s block iff each coordinate is in the block's range on its axis. -/
theorem mem_blk (t : Fin cfg2.N) (i : S12000x40.Idx) :
    i ∈ ((cfg2.win 4).blk t).view.set ↔ ∀ a : Fin 2, win2_4.index t a * S120x40.size a ≤ (i a).val ∧ (i a).val < win2_4.index t a * S120x40.size a + S120x40.size a := by
  show i ∈ ((View.whole main_v5).slice (win2_4.rect t)).set ↔ _
  rw [View.set_slice_whole, Rect.mem_set_unit]
  exact Iff.rfl

/-- The 100 row blocks tile the output array: row `r` lies in block `r / 120`. -/
theorem cover (i : S12000x40.Idx) : ∃ t : Fin cfg2.N, (cfg2.win 4).flush t = true ∧ i ∈ ((cfg2.win 4).blk t).view.set := by
  have hi0 : (i 0).val < 12000 := (i 0).isLt
  have hi1 : (i 1).val < 40 := (i 1).isLt
  have ht : (i 0).val / 120 < cfg2.N := by rw [show cfg2.N = 100 from N_2]; omega
  refine ⟨⟨(i 0).val / 120, ht⟩, flush2_4 _, ?_⟩
  obtain ⟨-, -, -, -, -, -, -, -, e0, e1⟩ := idx ⟨(i 0).val / 120, ht⟩
  rw [mem_blk]
  intro a
  match a with
  | ⟨0, _⟩ =>
    show win2_4.index ⟨(i 0).val / 120, ht⟩ (0 : Fin 2) * 120 ≤ (i 0).val ∧ (i 0).val < win2_4.index ⟨(i 0).val / 120, ht⟩ (0 : Fin 2) * 120 + 120
    rw [e0]; show (i 0).val / 120 * 120 ≤ (i 0).val ∧ (i 0).val < (i 0).val / 120 * 120 + 120; omega
  | ⟨1, _⟩ =>
    show win2_4.index ⟨(i 0).val / 120, ht⟩ (1 : Fin 2) * 40 ≤ (i 1).val ∧ (i 1).val < win2_4.index ⟨(i 0).val / 120, ht⟩ (1 : Fin 2) * 40 + 40
    rw [e1]; omega

/-- After the region its output array holds the output layer of the arrays as the region found them. -/
theorem final (c : Dev nD) :
    (dat2 V c).arrAt 4 cfg2.N = logits (V c main_arg0) (V c main_v3) (V c main_arg6) (row0 (V c main_v4)) :=
  (dat2 V c).arrAt_eq_of_cover 4 _ (fun t _ => flushed V c t) cover

end Cert.Sage.Reg2

end
-- ==== Proof.Chain.lean ====
/-
  The three regions chained: what the program's result array holds at the end, as the network of the launch arguments.

  Between the regions the only host operations reshape a bias vector to one row. Region 0 finds the adjacency matrix,
  the input features, the first weights and the first bias row; its output array (the first hidden layer) is the
  feature array region 1 finds, beside the same adjacency matrix and the second weights and bias row; region 1's
  output is region 2's feature array. No region and no host operation writes an argument, and each region's output
  array is written by that region only, so every array a region finds is read back to the launch memory or to the
  previous region's output.
-/
import proofs.«126285_j35330400977322_1_alg».proof.Proof.Gen.KernelIdeal.Frame
import proofs.«126285_j35330400977322_1_alg».proof.Proof.Region0
import proofs.«126285_j35330400977322_1_alg».proof.Proof.Region1
import proofs.«126285_j35330400977322_1_alg».proof.Proof.Region2
import Idealize.ShloMosaic.Lib.StableHlo.Run
import Idealize.ShloMosaic.Lib.ValueLayout

set_option maxRecDepth 16384

noncomputable section

namespace Cert.Sage.Chain

open Idealize.ShloMosaic Idealize.ShloMosaic.TcCoe Idealize.ShloMosaic.ValueIdx Idealize.SL.Sem
open Cert.KernelIdeal Cert.KernelIdeal.Gen Cert.Sage

variable (m : (ℓ : Loc nD τ sig) → Buf (Elt Ideal) ℓ) (ρ : Dev nD → PrngReg)

/-! ## The three one-operation host stretches: a bias reshaped to one row -/

/-- The first stretch writes `main_v0` only. -/
theorem keep0 (W : Valuation τ sig (Elt Ideal)) (b : Ref sig .tc) (hb : b ≠ main_v0) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second writes `main_v2` only. -/
theorem keep1 (W : Valuation τ sig (Elt Ideal)) (b : Ref sig .tc) (hb : b ≠ main_v2) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The third writes `main_v4` only. -/
theorem keep2 (W : Valuation τ sig (Elt Ideal)) (b : Ref sig .tc) (hb : b ≠ main_v4) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- What each stretch writes: the bias vector as a one-row array. -/
theorem res0 (W : Valuation τ sig (Elt Ideal)) :
    (StableHlo.after (hostOps0 (F := Ideal)) W (Proc.devRef .tc main_v0) : S1x256.Idx → EReal)
      = shapeCast S1x256 (W (Proc.devRef .tc main_arg3)) shapeCasts_S256_S1x256 := by
  after_results
  rfl
theorem res1 (W : Valuation τ sig (Elt Ideal)) :
    (StableHlo.after (hostOps1 (F := Ideal)) W (Proc.devRef .tc main_v2) : S1x256.Idx → EReal)
      = shapeCast S1x256 (W (Proc.devRef .tc main_arg5)) shapeCasts_S256_S1x256 := by
  after_results
  rfl
theorem res2 (W : Valuation τ sig (Elt Ideal)) :
    (StableHlo.after (hostOps2 (F := Ideal)) W (Proc.devRef .tc main_v4) : S1x40.Idx → EReal)
      = shapeCast S1x40 (W (Proc.devRef .tc main_arg7)) shapeCasts_S40_S1x40 := by
  after_results
  rfl

/-- Row 0 of a vector reshaped to one row is the vector. -/
theorem row0_shapeCast {n : Nat} (x : (⟨1, ![n]⟩ : Shape).Idx → EReal) (h : (⟨1, ![n]⟩ : Shape).ShapeCasts ⟨2, ![1, n]⟩) :
    row0 (shapeCast ⟨2, ![1, n]⟩ x h) = vec x :=
  funext fun l => shapeCast_a_1a_apply x h (0 : Fin 1) l

/-! ## The arguments at every boundary -/

/-- After the first stretch a buffer other than `main_v0` is as launched. -/
theorem W1_keep (c : Dev nD) (b : Ref sig .tc) (hb : b ≠ main_v0) :
    W1 m ρ c (Proc.devRef .tc b) = m ((c : Thread nD τ).loc b) :=
  (keep0 (W0 m ρ c) b hb).trans rfl

/-- After region 0 a buffer that is none of its arrays, and not `main_v0`, is as launched. -/
theorem W2_keep (c : Dev nD) (b : Ref sig .tc) (hw : ∀ w, Pipeline.arrRef spec0 w ≠ b) (hb : b ≠ main_v0) :
    W2 m ρ c (Proc.devRef .tc b) = m ((c : Thread nD τ).loc b) :=
  (W2_of_ne m ρ c b hw).trans (W1_keep m ρ c b hb)

/-- The adjacency matrix after region 0 (an input window's array ends as the region found it). -/
theorem W2_adj (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_keep m ρ c main_arg0 (by decide))

/-- After the second stretch a buffer that is none of region 0's arrays, nor a reshaped bias, is as launched. -/
theorem W3_keep (c : Dev nD) (b : Ref sig .tc) (hw : ∀ w, Pipeline.arrRef spec0 w ≠ b) (hb : b ≠ main_v0) (hb' : b ≠ main_v2) :
    W3 m ρ c (Proc.devRef .tc b) = m ((c : Thread nD τ).loc b) :=
  (keep1 (W2 m ρ c) b hb').trans (W2_keep m ρ c b hw hb)

theorem W3_adj (c : Dev nD) : W3 m ρ c (Proc.devRef .tc main_arg0) = m ((c : Thread nD τ).loc main_arg0) :=
  (keep1 (W2 m ρ c) main_arg0 (by decide)).trans (W2_adj m ρ c)

/-- After region 1 likewise, for a buffer that is none of either region's arrays. -/
theorem W4_keep (c : Dev nD) (b : Ref sig .tc) (hw : ∀ w, Pipeline.arrRef spec0 w ≠ b) (hw' : ∀ w, Pipeline.arrRef spec1 w ≠ b)
    (hb : b ≠ main_v0) (hb' : b ≠ main_v2) : W4 m ρ c (Proc.devRef .tc b) = m ((c : Thread nD τ).loc b) :=
  (W4_of_ne m ρ c b hw').trans (W3_keep m ρ c b hw hb hb')

theorem W4_adj (c : Dev nD) : W4 m ρ c (Proc.devRef .tc main_arg0) = m ((c : Thread nD τ).loc main_arg0) :=
  ((W4_arr m ρ c 0).trans (((dat1 (V3 m ρ) c).arrAt_in 0 rfl _).trans (A_eq1 (V3 m ρ) c 0))).trans (W3_adj m ρ c)

/-! ## The three layers -/

/-- The first hidden layer of the launch arguments. -/
abbrev H1 (c : Dev nD) : SFeat.Idx → EReal :=
  hidden (m ((c : Thread nD τ).loc main_arg0)) (m ((c : Thread nD τ).loc main_arg1)) (m ((c : Thread nD τ).loc main_arg2))
    (vec (m ((c : Thread nD τ).loc main_arg3)))

/-- The second. -/
abbrev H2 (c : Dev nD) : SFeat.Idx → EReal :=
  hidden (m ((c : Thread nD τ).loc main_arg0)) (H1 m c) (m ((c : Thread nD τ).loc main_arg4)) (vec (m ((c : Thread nD τ).loc main_arg5)))

/-- Region 0's output array after the region is the first hidden layer. -/
theorem out0 (c : Dev nD) : (W2 m ρ c (Proc.devRef .tc main_v1) : SFeat.Idx → EReal) = H1 m c := by
  refine ((W2_arr m ρ c 4).trans (Reg0.final (V1 m ρ) c)).trans ?_
  have e0 : V1 m ρ c main_arg0 = m ((c : Thread nD τ).loc main_arg0) := W1_keep m ρ c main_arg0 (by decide)
  have e1 : V1 m ρ c main_arg1 = m ((c : Thread nD τ).loc main_arg1) := W1_keep m ρ c main_arg1 (by decide)
  have e2 : V1 m ρ c main_arg2 = m ((c : Thread nD τ).loc main_arg2) := W1_keep m ρ c main_arg2 (by decide)
  have e3 : row0 (V1 m ρ c main_v0) = vec (m ((c : Thread nD τ).loc main_arg3)) :=
    (congrArg row0 (res0 (W0 m ρ c))).trans (row0_shapeCast _ _)
  rw [e0, e1, e2, e3]

/-- Region 1's output array after the region is the second hidden layer. -/
theorem out1 (c : Dev nD) : (W4 m ρ c (Proc.devRef .tc main_v3) : SFeat.Idx → EReal) = H2 m c := by
  refine ((W4_arr m ρ c 4).trans (Reg1.final (V3 m ρ) c)).trans ?_
  have e0 : V3 m ρ c main_arg0 = m ((c : Thread nD τ).loc main_arg0) := W3_adj m ρ c
  have e1 : (V3 m ρ c main_v1 : SFeat.Idx → EReal) = H1 m c := (keep1 (W2 m ρ c) main_v1 (by decide)).trans (out0 m ρ c)
  have e2 : V3 m ρ c main_arg4 = m ((c : Thread nD τ).loc main_arg4) := W3_keep m ρ c main_arg4 (by decide) (by decide) (by decide)
  have e5 : W2 m ρ c (Proc.devRef .tc main_arg5) = m ((c : Thread nD τ).loc main_arg5) := W2_keep m ρ c main_arg5 (by decide) (by decide)
  have e3 : row0 (V3 m ρ c main_v2) = vec (m ((c : Thread nD τ).loc main_arg5)) :=
    (congrArg row0 (res1 (W2 m ρ c))).trans ((row0_shapeCast _ _).trans (congrArg vec e5))
  rw [e0, e1, e2, e3]

/-- The result array after the last region is the network of the launch arguments. -/
theorem result (c : Dev nD) : (W6 m ρ c (Proc.devRef .tc main_v5) : (SOut 40).Idx → EReal)
    = net (m ((c : Thread nD τ).loc main_arg0)) (m ((c : Thread nD τ).loc main_arg1)) (m ((c : Thread nD τ).loc main_arg2))
        (vec (m ((c : Thread nD τ).loc main_arg3))) (m ((c : Thread nD τ).loc main_arg4)) (vec (m ((c : Thread nD τ).loc main_arg5)))
        (m ((c : Thread nD τ).loc main_arg6)) (vec (m ((c : Thread nD τ).loc main_arg7))) := by
  refine ((W6_arr m ρ c 4).trans (Reg2.final (V5 m ρ) c)).trans ?_
  have e0 : V5 m ρ c main_arg0 = m ((c : Thread nD τ).loc main_arg0) := (keep2 (W4 m ρ c) main_arg0 (by decide)).trans (W4_adj m ρ c)
  have e1 : (V5 m ρ c main_v3 : SFeat.Idx → EReal) = H2 m c := (keep2 (W4 m ρ c) main_v3 (by decide)).trans (out1 m ρ c)
  have e2 : V5 m ρ c main_arg6 = m ((c : Thread nD τ).loc main_arg6) :=
    (keep2 (W4 m ρ c) main_arg6 (by decide)).trans (W4_keep m ρ c main_arg6 (by decide) (by decide) (by decide) (by decide))
  have e7 : W4 m ρ c (Proc.devRef .tc main_arg7) = m ((c : Thread nD τ).loc main_arg7) :=
    W4_keep m ρ c main_arg7 (by decide) (by decide) (by decide) (by decide)
  have e3 : row0 (V5 m ρ c main_v4) = vec (m ((c : Thread nD τ).loc main_arg7)) :=
    (congrArg row0 (res2 (W4 m ρ c))).trans ((row0_shapeCast _ _).trans (congrArg vec e7))
  rw [e0, e1, e2, e3]
  rfl

end Cert.Sage.Chain

end
-- ==== Proof.RefLayers.lean ====
import proofs.«126285_j35330400977322_1_alg».proof.Proof.Gen.ReferenceIdeal.Read
import proofs.«126285_j35330400977322_1_alg».proof.Proof.SageSpec
import Idealize.ShloMosaic.Lib.ValueIdx
import Idealize.ShloMosaic.PureOps.Ideal.Laws

noncomputable section

namespace Cert.Sage.Ref

open Idealize.ShloMosaic Idealize.ShloMosaic.ValueIdx Cert.ReferenceIdeal Cert.ReferenceIdeal.Read Cert.Sage

/-! ### The first layer, one operation at a time, at explicit coordinates -/

/-- The first product (adjacency times features) at (r, j) is the aggregate of row r. -/
theorem v0_at (x0 : (⟨S12000x12000, .f32⟩ : BufTy).Contents (Elt Ideal)) (x1 : (⟨S12000x256, .f32⟩ : BufTy).Contents (Elt Ideal))
    (r : Fin 12000) (j : Fin 256) :
    val_main_v0 (F := Ideal) x0 x1 (ix2 r j) = agg (adjRow x0 r) x1 j := by
  refine (val_main_v0_apply x0 x1 (ix2 r j)).trans ?_
  unfold agg
  refine Finset.sum_congr rfl fun k _ => ?_
  have el : lidx_main_v0 (ix2 r j) k = ix2 r k :=
    funext fun a => Fin.ext (by match a with | ⟨0, _⟩ => rfl | ⟨1, _⟩ => rfl)
  have er : ridx_main_v0 (ix2 r j) k = ix2 k j :=
    funext fun a => Fin.ext (by match a with | ⟨0, _⟩ => rfl | ⟨1, _⟩ => rfl)
  rw [el, er]

/-- The second product (the aggregate times the weights) at (r, l). -/
theorem v1_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (r : Fin 12000) (l : Fin 256) :
    val_main_v1 (F := Ideal) x0 x1 x2 (ix2 r l) = ∑ j : Fin 256, agg (adjRow x0 r) x1 j * x2 (ix2 j l) := by
  refine (val_main_v1_apply x0 x1 x2 (ix2 r l)).trans ?_
  refine Finset.sum_congr rfl fun k _ => ?_
  have el : lidx_main_v1 (ix2 r l) k = ix2 r k :=
    funext fun a => Fin.ext (by match a with | ⟨0, _⟩ => rfl | ⟨1, _⟩ => rfl)
  have er : ridx_main_v1 (ix2 r l) k = ix2 k l :=
    funext fun a => Fin.ext (by match a with | ⟨0, _⟩ => rfl | ⟨1, _⟩ => rfl)
  rw [el, er, v0_at]

/-- The bias, broadcast to a row and then to every row, at (r, l) is its entry l. -/
theorem v3_at (x3 : (⟨S256, .f32⟩ : BufTy).Contents (Elt Ideal)) (r : Fin 12000) (l : Fin 256) :
    val_main_v3 (F := Ideal) x3 (ix2 r l) = vec x3 l := by
  refine (val_main_v3_apply x3 (ix2 r l)).trans ?_
  refine (val_main_v2_apply x3 _).trans ?_
  exact congrArg x3 (funext fun a => Fin.ext (by match a with | ⟨0, _⟩ => rfl))

/-- The linear map and the bias at (r, l). -/
theorem v4_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (r : Fin 12000) (l : Fin 256) :
    val_main_v4 (F := Ideal) x0 x1 x2 x3 (ix2 r l) = lin (adjRow x0 r) x1 x2 (vec x3) l := by
  refine (val_main_v4_apply x0 x1 x2 x3 (ix2 r l)).trans ?_
  rw [Ideal.addf_def, v1_at, v3_at]
  rfl

/-- The rectified value at (r, l); the threshold is the same word on both sides. -/
theorem v5_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (r : Fin 12000) (l : Fin 256) :
    val_main_v5 (F := Ideal) x0 x1 x2 x3 (ix2 r l) = act (adjRow x0 r) x1 x2 (vec x3) l := by
  refine (val_main_v5_apply x0 x1 x2 x3 (ix2 r l)).trans ?_
  rw [Ideal.maximumf_def, v4_at, val_main_call0_v0_apply, val_main_call0_cst_apply]
  rfl

/-- The row's sum of squares: the initial value is the extended real zero. -/
theorem v7_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (r : Fin 12000) :
    val_main_v7 (F := Ideal) x0 x1 x2 x3 (ix1 r)
      = ∑ k : Fin 256, act (adjRow x0 r) x1 x2 (vec x3) k * act (adjRow x0 r) x1 x2 (vec x3) k := by
  refine (val_main_v7_apply x0 x1 x2 x3 (ix1 r)).trans ?_
  rw [val_main_cst_apply, Ideal.ofBits_def, Ideal.ofBits_zero_f32, zero_add]
  refine Finset.sum_congr rfl fun k _ => ?_
  have e : idx_main_v7 (ix1 r) k = ix2 r k :=
    funext fun a => Fin.ext (by match a with | ⟨0, _⟩ => rfl | ⟨1, _⟩ => rfl)
  rw [e, val_main_v6_apply, Ideal.mulf_def, v5_at]

/-- The row's clamped norm, kept as a one-column array, at (r, 0). -/
theorem v11_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (r : Fin 12000) :
    val_main_v11 (F := Ideal) x0 x1 x2 x3 (ix2 r (0 : Fin 1)) = nrm (adjRow x0 r) x1 x2 (vec x3) := by
  refine (val_main_v11_apply x0 x1 x2 x3 (ix2 r (0 : Fin 1))).trans ?_
  rw [Ideal.maximumf_def, val_main_v9_apply, Ideal.hostUnary_sqrt_def, val_main_v8_apply,
    val_main_v10_apply, val_main_cst_0_apply]
  have e : idx_main_v8 (ix2 r (0 : Fin 1)) = ix1 r :=
    funext fun a => Fin.ext (by match a with | ⟨0, _⟩ => rfl)
  rw [e, v7_at]
  rfl

/-- The norm broadcast along the row, at (r, l). -/
theorem v12_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (r : Fin 12000) (l : Fin 256) :
    val_main_v12 (F := Ideal) x0 x1 x2 x3 (ix2 r l) = nrm (adjRow x0 r) x1 x2 (vec x3) := by
  refine (val_main_v12_apply x0 x1 x2 x3 (ix2 r l)).trans ?_
  have e : idx_main_v12 (ix2 r l) = ix2 r (0 : Fin 1) :=
    funext fun a => Fin.ext (by match a with | ⟨0, _⟩ => rfl | ⟨1, _⟩ => rfl)
  rw [e, v11_at]

/-- The reference's first thirteen operations are one hidden layer of its arguments. -/
theorem ref_hidden (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal)) :
    val_main_v13 (F := Ideal) x0 x1 x2 x3 = hidden x0 x1 x2 (vec x3) := by
  funext i
  obtain ⟨r, l, rfl⟩ : ∃ (r : Fin 12000) (l : Fin 256), i = ix2 r l :=
    ⟨⟨(i 0).val, (i 0).isLt⟩, ⟨(i 1).val, (i 1).isLt⟩, eq_ix2 i⟩
  rw [hidden_apply]
  refine (val_main_v13_apply x0 x1 x2 x3 (ix2 r l)).trans ?_
  rw [Ideal.hostDivf_def, v5_at, v12_at]
  rfl

/-- Its next fourteen are a hidden layer of the first layer's result. -/
theorem ref_hidden2 (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v27 (F := Ideal) x0 x1 x2 x3 x4 x5 = hidden x0 (val_main_v13 (F := Ideal) x0 x1 x2 x3) x4 (vec x5) := by
  -- the second layer is the same thirteen operations, with the same rectifier threshold and norm floor,
  -- applied to the first layer's result, the second weights and the second bias
  have h : val_main_v27 (F := Ideal) x0 x1 x2 x3 x4 x5
      = val_main_v13 (F := Ideal) x0 (val_main_v13 (F := Ideal) x0 x1 x2 x3) x4 x5 := rfl
  exact h.trans (ref_hidden x0 (val_main_v13 (F := Ideal) x0 x1 x2 x3) x4 x5)

/-! ### The output layer at explicit coordinates -/

/-- The third aggregate at (r, j), over the second layer's result. -/
theorem v28_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (r : Fin 12000) (j : Fin 256) :
    val_main_v28 (F := Ideal) x0 x1 x2 x3 x4 x5 (ix2 r j)
      = agg (adjRow x0 r) (val_main_v27 (F := Ideal) x0 x1 x2 x3 x4 x5) j := by
  refine (val_main_v28_apply x0 x1 x2 x3 x4 x5 (ix2 r j)).trans ?_
  unfold agg
  refine Finset.sum_congr rfl fun k _ => ?_
  have el : lidx_main_v28 (ix2 r j) k = ix2 r k :=
    funext fun a => Fin.ext (by match a with | ⟨0, _⟩ => rfl | ⟨1, _⟩ => rfl)
  have er : ridx_main_v28 (ix2 r j) k = ix2 k j :=
    funext fun a => Fin.ext (by match a with | ⟨0, _⟩ => rfl | ⟨1, _⟩ => rfl)
  rw [el, er]

/-- The output product (the aggregate times the 256 × 40 weights) at (r, l). -/
theorem v29_at (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x40, .f32⟩ : BufTy).Contents (Elt Ideal)) (r : Fin 12000) (l : Fin 40) :
    val_main_v29 (F := Ideal) x0 x1 x2 x3 x4 x5 x6 (ix2 r l)
      = ∑ j : Fin 256, agg (adjRow x0 r) (val_main_v27 (F := Ideal) x0 x1 x2 x3 x4 x5) j * x6 (ix2 j l) := by
  refine (val_main_v29_apply x0 x1 x2 x3 x4 x5 x6 (ix2 r l)).trans ?_
  refine Finset.sum_congr rfl fun k _ => ?_
  have el : lidx_main_v29 (ix2 r l) k = ix2 r k :=
    funext fun a => Fin.ext (by match a with | ⟨0, _⟩ => rfl | ⟨1, _⟩ => rfl)
  have er : ridx_main_v29 (ix2 r l) k = ix2 k l :=
    funext fun a => Fin.ext (by match a with | ⟨0, _⟩ => rfl | ⟨1, _⟩ => rfl)
  rw [el, er, v28_at]

/-- The output bias, broadcast to a row and then to every row, at (r, l) is its entry l. -/
theorem v31_at (x7 : (⟨S40, .f32⟩ : BufTy).Contents (Elt Ideal)) (r : Fin 12000) (l : Fin 40) :
    val_main_v31 (F := Ideal) x7 (ix2 r l) = vec x7 l := by
  refine (val_main_v31_apply x7 (ix2 r l)).trans ?_
  refine (val_main_v30_apply x7 _).trans ?_
  exact congrArg x7 (funext fun a => Fin.ext (by match a with | ⟨0, _⟩ => rfl))

/-- Its last five are the output layer of the second layer's result. -/
theorem ref_logits (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x40, .f32⟩ : BufTy).Contents (Elt Ideal)) (x7 : (⟨S40, .f32⟩ : BufTy).Contents (Elt Ideal)) :
    val_main_v32 (F := Ideal) x0 x1 x2 x3 x4 x5 x6 x7
      = logits x0 (val_main_v27 (F := Ideal) x0 x1 x2 x3 x4 x5) x6 (vec x7) := by
  funext i
  obtain ⟨r, l, rfl⟩ : ∃ (r : Fin 12000) (l : Fin 40), i = ix2 r l :=
    ⟨⟨(i 0).val, (i 0).isLt⟩, ⟨(i 1).val, (i 1).isLt⟩, eq_ix2 i⟩
  rw [logits_apply]
  refine (val_main_v32_apply x0 x1 x2 x3 x4 x5 x6 x7 (ix2 r l)).trans ?_
  rw [Ideal.addf_def, v29_at, v31_at]
  rfl

/-- So the reference's result is the network of its arguments. -/
theorem ref_net (x0 : (⟨S12000x12000, .f32⟩ : BufTy).Contents (Elt Ideal)) (x1 : (⟨S12000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x40, .f32⟩ : BufTy).Contents (Elt Ideal)) (x7 : (⟨S40, .f32⟩ : BufTy).Contents (Elt Ideal)) :
    val_main_v32 (F := Ideal) x0 x1 x2 x3 x4 x5 x6 x7 = net x0 x1 x2 (vec x3) x4 (vec x5) x6 (vec x7) := by
  rw [ref_logits, ref_hidden2, ref_hidden]; rfl

end Cert.Sage.Ref

end
-- ==== Proof.lean ====
/-
  The certificate of a three-layer GraphSAGE-style network: a tiled kernel launched three times (one launch per layer,
  100 row blocks of 120 nodes each) against the whole-array reference.

  Each layer aggregates the node features with the dense adjacency matrix, applies a linear map and a bias, and — in the
  two hidden layers — rectifies and divides every row by its Euclidean norm clamped below by ε. The kernel casts the
  matmul operands to bf16 and accumulates in f32; over the extended reals a change of float format is the identity, a
  matrix product into a zero accumulator and the reference's matrix product are the same finite sum, and the kernel's
  lane sum and the reference's row sum are the same finite sum, so both programs compute ONE function, `Sage.net` (Proof/SageSpec.lean),
  with the same nesting of sums on both sides. No algebraic law beyond reindexing is used, so the finiteness of the
  inputs is never opened.

  The pieces: the kernel bodies read at an index of their row block (Proof/KernelRows.lean); what a region leaves in its
  output array, for any contents it is entered from (Proof/Region0.lean, Region1.lean, Region2.lean); the run with the
  result array named (Proof/RunResult.lean) and the regions chained back to the launch arguments (Proof/Chain.lean);
  the reference's stages as the same layers (Proof/RefLayers.lean). The reference's frame is its run with the result
  dropped; no operation of the kernel was rewritten for the reading over the extended reals, so `preserves` is trivial.
-/
import proofs.«126285_j35330400977322_1_alg».proof.Defs
import proofs.«126285_j35330400977322_1_alg».proof.Proof.Gen.Kernel
import proofs.«126285_j35330400977322_1_alg».proof.Proof.Gen.Kernel.Skeleton
import proofs.«126285_j35330400977322_1_alg».proof.Proof.Gen.Kernel.Launch
import proofs.«126285_j35330400977322_1_alg».proof.Proof.Gen.Kernel.Points
import proofs.«126285_j35330400977322_1_alg».proof.Proof.Gen.Kernel.Frame
import proofs.«126285_j35330400977322_1_alg».proof.Proof.Gen.KernelIdeal
import proofs.«126285_j35330400977322_1_alg».proof.Proof.Gen.KernelIdeal.Skeleton
import proofs.«126285_j35330400977322_1_alg».proof.Proof.Gen.KernelIdeal.Launch
import proofs.«126285_j35330400977322_1_alg».proof.Proof.Gen.KernelIdeal.Points
import proofs.«126285_j35330400977322_1_alg».proof.Proof.Gen.KernelIdeal.Frame
import proofs.«126285_j35330400977322_1_alg».proof.Proof.Gen.ReferenceIdeal
import proofs.«126285_j35330400977322_1_alg».proof.Proof.Gen.Pre_finite_inputs
import proofs.«126285_j35330400977322_1_alg».proof.Proof.Gen.ReferenceIdeal.Run
import proofs.«126285_j35330400977322_1_alg».proof.Proof.Gen.ReferenceIdeal.Read
import proofs.«126285_j35330400977322_1_alg».proof.Proof.RunResult
import proofs.«126285_j35330400977322_1_alg».proof.Proof.Chain
import proofs.«126285_j35330400977322_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result array: the kernel's three regions chained, the
    reference's forty-one operations read as the same three layers, from memories that agree on the arguments. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.Sage.vec (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (Cert.Sage.vec (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (Cert.Sage.vec (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.Sage.Chain.result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, Cert.Sage.Ref.ref_net, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
